-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x400000 : Shape := ⟨2, ![2, 400000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S256x64 .f32) (main_arg6 : FVec F S64 .f32) (main_arg7 : FVec F S256x64 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256x64 .f32 := Host.absf main_arg5
  let main_cst_6 : FVec F S_ .f32 := constant S_ .f32 0x7F800000#32
  let main_v20 : FVec F S256x64 .f32 := broadcastInDim S256x64 ![] bcast_S_S256x64 main_cst_6
  let main_v21 : IVec S256x64 1 := cmpf .olt main_v19 main_v20
  let main_c_7 : IVec S_ 1 := constantI S_ 1 1#1
  let main_v22 : IVec S_ 1 := (fun x v => Host.reduce IntOp.andi x v reducesTo_S256x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S256x64 .f32 := Host.absf main_arg7
  let main_cst_10 : FVec F S_ .f32 := constant S_ .f32 0x7F800000#32
  let main_v30 : FVec F S256x64 .f32 := broadcastInDim S256x64 ![] bcast_S_S256x64 main_cst_10
  let main_v31 : IVec S256x64 1 := cmpf .olt main_v29 main_v30
  let main_c_11 : IVec S_ 1 := constantI S_ 1 1#1
  let main_v32 : IVec S_ 1 := (fun x v => Host.reduce IntOp.andi x v reducesTo_S256x64_S_d0_1 h_S_) main_v31 main_c_11
  let main_v33 : IVec S_ 1 := andi main_v28 main_v32
  main_v33

def fn {F : FTy → Type} [FloatOps F] (main_arg0 : FVec F S100000x128 .f32) (main_arg1 : IVec S2x400000 32) (main_arg2 : FVec F S128x256 .f32) (main_arg3 : FVec F S256 .f32) (main_arg4 : FVec F S128x256 .f32) (main_arg5 : FVec F S256x64 .f32) (main_arg6 : FVec F S64 .f32) (main_arg7 : FVec F S256x64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S128x256 .f32 := Host.absf main_arg4
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg5 main_arg6 main_arg7 main_v13 main_v16
-- ==== Kernel.lean ====
abbrev S100000x128 : Shape := ⟨2, ![100000, 128]⟩
abbrev S2x400000 : Shape := ⟨2, ![2, 400000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S400000x128 : Shape := ⟨2, ![400000, 128]⟩
abbrev S100000 : Shape := ⟨1, ![100000]⟩
abbrev S100000x1 : Shape := ⟨2, ![100000, 1]⟩
abbrev S1x256 : Shape := ⟨2, ![1, 256]⟩
abbrev S100000x256 : Shape := ⟨2, ![100000, 256]⟩
abbrev S5000x128 : Shape := ⟨2, ![5000, 128]⟩
abbrev S5000x256 : Shape := ⟨2, ![5000, 256]⟩
abbrev S400000x256 : Shape := ⟨2, ![400000, 256]⟩
abbrev S1x64 : Shape := ⟨2, ![1, 64]⟩
abbrev S100000x64 : Shape := ⟨2, ![100000, 64]⟩
abbrev S5000x64 : Shape := ⟨2, ![5000, 64]⟩

abbrev nBuf : Space → Nat
  | .hbm => 70
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x400000, .i32⟩
  | .hbm, ⟨2, _⟩ => ⟨S128x256, .f32⟩
  | .hbm, ⟨3, _⟩ => ⟨S256, .f32⟩
  | .hbm, ⟨4, _⟩ => ⟨S128x256, .f32⟩
  | .hbm, ⟨5, _⟩ => ⟨S256x64, .f32⟩
  | .hbm, ⟨6, _⟩ => ⟨S64, .f32⟩
  | .hbm, ⟨7, _⟩ => ⟨S256x64, .f32⟩
  | .hbm, ⟨8, _⟩ => ⟨S1x400000, .i32⟩
  | .hbm, ⟨9, _⟩ => ⟨S400000, .i32⟩
  | .hbm, ⟨10, _⟩ => ⟨S1x400000, .i32⟩
  | .hbm, ⟨11, _⟩ => ⟨S400000, .i32⟩
  | .hbm, ⟨12, _⟩ => ⟨S_, .i32⟩
  | .hbm, ⟨13, _⟩ => ⟨S400000, .i32⟩
  | .hbm, ⟨14, _⟩ => ⟨S400000, .i1⟩
  | .hbm, ⟨15, _⟩ => ⟨S_, .i32⟩
  | .hbm, ⟨16, _⟩ => ⟨S400000, .i32⟩
  | .hbm, ⟨17, _⟩ => ⟨S400000, .i32⟩
  | .hbm, ⟨18, _⟩ => ⟨S400000, .i32⟩
  | .hbm, ⟨19, _⟩ => ⟨S400000x1, .i32⟩
  | .hbm, ⟨20, _⟩ => ⟨S400000x128, .f32⟩
  | .hbm, ⟨21, _⟩ => ⟨S_, .f32⟩
  | .hbm, ⟨22, _⟩ => ⟨S100000x128, .f32⟩
  | .hbm, ⟨23, _⟩ => ⟨S400000x1, .i32⟩
  | .hbm, ⟨24, _⟩ => ⟨S100000x128, .f32⟩
  | .hbm, ⟨25, _⟩ => ⟨S_, .f32⟩
  | .hbm, ⟨26, _⟩ => ⟨S400000, .f32⟩
  | .hbm, ⟨27, _⟩ => ⟨S_, .f32⟩
  | .hbm, ⟨28, _⟩ => ⟨S100000, .f32⟩
  | .hbm, ⟨29, _⟩ => ⟨S400000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S128x256, .bf16⟩
  | .hbm, ⟨38, _⟩ => ⟨S128x256, .bf16⟩
  | .hbm, ⟨39, _⟩ => ⟨S1x256, .f32⟩
  | .hbm, ⟨40, _⟩ => ⟨S100000x256, .f32⟩
  | .hbm, ⟨41, _⟩ => ⟨S_, .i32⟩
  | .hbm, ⟨42, _⟩ => ⟨S400000, .i32⟩
  | .hbm, ⟨43, _⟩ => ⟨S400000, .i1⟩
  | .hbm, ⟨44, _⟩ => ⟨S_, .i32⟩
  | .hbm, ⟨45, _⟩ => ⟨S400000, .i32⟩
  | .hbm, ⟨46, _⟩ => ⟨S400000, .i32⟩
  | .hbm, ⟨47, _⟩ => ⟨S400000, .i32⟩
  | .hbm, ⟨48, _⟩ => ⟨S400000x1, .i32⟩
  | .hbm, ⟨49, _⟩ => ⟨S400000x256, .f32⟩
  | .hbm, ⟨50, _⟩ => ⟨S_, .f32⟩
  | .hbm, ⟨51, _⟩ => ⟨S100000x256, .f32⟩
  | .hbm, ⟨52, _⟩ => ⟨S400000x1, .i32⟩
  | .hbm, ⟨53, _⟩ => ⟨S100000x256, .f32⟩
  | .hbm, ⟨54, _⟩ => ⟨S_, .f32⟩
  | .hbm, ⟨55, _⟩ => ⟨S400000, .f32⟩
  | .hbm, ⟨56, _⟩ => ⟨S_, .f32⟩
  | .hbm, ⟨57, _⟩ => ⟨S100000, .f32⟩
  | .hbm, ⟨58, _⟩ => ⟨S400000x1, .i32⟩
  | .hbm, ⟨59, _⟩ => ⟨S100000, .f32⟩
  | .hbm, ⟨60, _⟩ => ⟨S_, .f32⟩
  | .hbm, ⟨61, _⟩ => ⟨S100000, .f32⟩
  | .hbm, ⟨62, _⟩ => ⟨S100000, .f32⟩
  | .hbm, ⟨63, _⟩ => ⟨S100000x1, .f32⟩
  | .hbm, ⟨64, _⟩ => ⟨S100000x256, .f32⟩
  | .hbm, ⟨65, _⟩ => ⟨S100000x256, .f32⟩
  | .hbm, ⟨66, _⟩ => ⟨S256x64, .bf16⟩
  | .hbm, ⟨67, _⟩ => ⟨S256x64, .bf16⟩
  | .hbm, ⟨68, _⟩ => ⟨S1x64, .f32⟩
  | .hbm, ⟨69, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x256, .bf16⟩
  | .local _ .vmem, ⟨5, _⟩ => ⟨S128x256, .bf16⟩
  | .local _ .vmem, ⟨6, _⟩ => ⟨S1x256, .f32⟩
  | .local _ .vmem, ⟨7, _⟩ => ⟨S5000x256, .f32⟩
  | .local _ .vmem, ⟨8, _⟩ => ⟨S5000x256, .f32⟩
  | .local _ .vmem, ⟨9, _⟩ => ⟨S5000x256, .f32⟩
  | .local _ .vmem, ⟨10, _⟩ => ⟨S5000x256, .f32⟩
  | .local _ .vmem, ⟨11, _⟩ => ⟨S5000x256, .f32⟩
  | .local _ .vmem, ⟨12, _⟩ => ⟨S5000x256, .f32⟩
  | .local _ .vmem, ⟨13, _⟩ => ⟨S256x64, .bf16⟩
  | .local _ .vmem, ⟨14, _⟩ => ⟨S256x64, .bf16⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_4 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_cst_8 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_9 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x64 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bitsLt_bf16_f32 : FTy.bits .bf16 < FTy.bits .f32
  shapeCasts_S256_S1x256 : S256.ShapeCasts S1x256
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  bcast_S_S100000x256 : S_.BroadcastsInDim S100000x256 (![] : Fin 0 → Fin S100000x256.rank)
  bcast_S100000x1_S100000x256_0_1 : S100000x1.BroadcastsInDim S100000x256 (![0, 1] : Fin 2 → Fin S100000x256.rank)
  shapeCasts_S64_S1x64 : S64.ShapeCasts S1x64
  shapeCasts_S5000x256_S5000x256 : S5000x256.ShapeCasts S5000x256
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  gather_S100000x128_S400000x1_S400000x128_1_0_n_n_0_1_1128_wf : GatherDims.WF S100000x128 S400000x1 S400000x128 [1] [0] [] [0] [] 1 ![1, 128]
  scatter_S100000x128_S400000x1_S400000x128_1_0_0_1_wf : ScatterDims.WF S100000x128 S400000x1 S400000x128 [1] [0] [0] 1
  scatter_S100000_S400000x1_S400000_n_0_0_1_wf : ScatterDims.WF S100000 S400000x1 S400000 [] [0] [0] 1
  dot_S5000x128_S128x256_S5000x256_1_0_0_1_n_n_wf : DotDims.WF S5000x128 S128x256 S5000x256 [1] [0] [0] [1] [] []
  gather_S100000x256_S400000x1_S400000x256_1_0_n_n_0_1_1256_wf : GatherDims.WF S100000x256 S400000x1 S400000x256 [1] [0] [] [0] [] 1 ![1, 256]
  scatter_S100000x256_S400000x1_S400000x256_1_0_0_1_wf : ScatterDims.WF S100000x256 S400000x1 S400000x256 [1] [0] [0] 1
  dot_S5000x256_S256x64_S5000x64_1_0_0_1_n_n_wf : DotDims.WF S5000x256 S256x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .bf16 = 32 ∨ (Rect.block (s := S128x256) S128x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .bf16 = 32 ∨ (Rect.block (s := S128x256) S128x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x256.size a ≤ S100000x256.size a
  hwx0_5 : ∀ i : grid0.Coords, EltTy.bits .f32 = 32 ∨ (Rect.block (s := S100000x256) S5000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S100000x256.size a
  hwx1_0 : ∀ i : grid1.Coords, EltTy.bits .f32 = 32 ∨ (Rect.block (s := S100000x256) S5000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x256.size a ≤ S100000x256.size a
  hwx1_1 : ∀ i : grid1.Coords, EltTy.bits .f32 = 32 ∨ (Rect.block (s := S100000x256) S5000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x64.size a ≤ S256x64.size a
  hwx1_2 : ∀ i : grid1.Coords, EltTy.bits .bf16 = 32 ∨ (Rect.block (s := S256x64) S256x64.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x64.size a ≤ S256x64.size a
  hwx1_3 : ∀ i : grid1.Coords, EltTy.bits .bf16 = 32 ∨ (Rect.block (s := S256x64) S256x64.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)

variable [Facts₀]

def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf
def scatter_S100000x128_S400000x1_S400000x128_1_0_0_1 : ScatterDims S100000x128 S400000x1 S400000x128 where
  updateWindowDims := [1]
  insertedWindowDims := [0]
  scatterDimsToOperandDims := [0]
  indexVectorDim := 1
  wf := scatter_S100000x128_S400000x1_S400000x128_1_0_0_1_wf
def scatter_S100000_S400000x1_S400000_n_0_0_1 : ScatterDims S100000 S400000x1 S400000 where
  updateWindowDims := []
  insertedWindowDims := [0]
  scatterDimsToOperandDims := [0]
  indexVectorDim := 1
  wf := scatter_S100000_S400000x1_S400000_n_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S100000x256_S400000x1_S400000x256_1_0_n_n_0_1_1256 : GatherDims S100000x256 S400000x1 S400000x256 where
  offsetDims := [1]
  collapsedSliceDims := [0]
  operandBatchingDims := []
  startIndicesBatchingDims := []
  startIndexMap := [0]
  indexVectorDim := 1
  sliceSizes := ![1, 256]
  wf := gather_S100000x256_S400000x1_S400000x256_1_0_n_n_0_1_1256_wf
def scatter_S100000x256_S400000x1_S400000x256_1_0_0_1 : ScatterDims S100000x256 S400000x1 S400000x256 where
  updateWindowDims := [1]
  insertedWindowDims := [0]
  scatterDimsToOperandDims := [0]
  indexVectorDim := 1
  wf := scatter_S100000x256_S400000x1_S400000x256_1_0_0_1_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v45) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S256x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S256x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v49) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x400000 : Shape := ⟨2, ![2, 400000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S400000x128 : Shape := ⟨2, ![400000, 128]⟩
abbrev S100000 : Shape := ⟨1, ![100000]⟩
abbrev S100000x1 : Shape := ⟨2, ![100000, 1]⟩
abbrev S100000x256 : Shape := ⟨2, ![100000, 256]⟩
abbrev S1x256 : Shape := ⟨2, ![1, 256]⟩
abbrev S400000x256 : Shape := ⟨2, ![400000, 256]⟩
abbrev S100000x64 : Shape := ⟨2, ![100000, 64]⟩
abbrev S1x64 : Shape := ⟨2, ![1, 64]⟩

abbrev nBuf : Space → Nat
  | .hbm => 77
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x400000, .i32⟩
  | .hbm, ⟨2, _⟩ => ⟨S128x256, .f32⟩
  | .hbm, ⟨3, _⟩ => ⟨S256, .f32⟩
  | .hbm, ⟨4, _⟩ => ⟨S128x256, .f32⟩
  | .hbm, ⟨5, _⟩ => ⟨S256x64, .f32⟩
  | .hbm, ⟨6, _⟩ => ⟨S64, .f32⟩
  | .hbm, ⟨7, _⟩ => ⟨S256x64, .f32⟩
  | .hbm, ⟨8, _⟩ => ⟨S1x400000, .i32⟩
  | .hbm, ⟨9, _⟩ => ⟨S400000, .i32⟩
  | .hbm, ⟨10, _⟩ => ⟨S1x400000, .i32⟩
  | .hbm, ⟨11, _⟩ => ⟨S400000, .i32⟩
  | .hbm, ⟨12, _⟩ => ⟨S_, .i32⟩
  | .hbm, ⟨13, _⟩ => ⟨S400000, .i32⟩
  | .hbm, ⟨14, _⟩ => ⟨S400000, .i1⟩
  | .hbm, ⟨15, _⟩ => ⟨S_, .i32⟩
  | .hbm, ⟨16, _⟩ => ⟨S400000, .i32⟩
  | .hbm, ⟨17, _⟩ => ⟨S400000, .i32⟩
  | .hbm, ⟨18, _⟩ => ⟨S400000, .i32⟩
  | .hbm, ⟨19, _⟩ => ⟨S400000x1, .i32⟩
  | .hbm, ⟨20, _⟩ => ⟨S400000x128, .f32⟩
  | .hbm, ⟨21, _⟩ => ⟨S_, .f32⟩
  | .hbm, ⟨22, _⟩ => ⟨S100000x128, .f32⟩
  | .hbm, ⟨23, _⟩ => ⟨S400000x1, .i32⟩
  | .hbm, ⟨24, _⟩ => ⟨S100000x128, .f32⟩
  | .hbm, ⟨25, _⟩ => ⟨S_, .f32⟩
  | .hbm, ⟨26, _⟩ => ⟨S400000, .f32⟩
  | .hbm, ⟨27, _⟩ => ⟨S_, .f32⟩
  | .hbm, ⟨28, _⟩ => ⟨S100000, .f32⟩
  | .hbm, ⟨29, _⟩ => ⟨S400000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S100000x256, .f32⟩
  | .hbm, ⟨38, _⟩ => ⟨S1x256, .f32⟩
  | .hbm, ⟨39, _⟩ => ⟨S100000x256, .f32⟩
  | .hbm, ⟨40, _⟩ => ⟨S100000x256, .f32⟩
  | .hbm, ⟨41, _⟩ => ⟨S100000x256, .f32⟩
  | .hbm, ⟨42, _⟩ => ⟨S100000x256, .f32⟩
  | .hbm, ⟨43, _⟩ => ⟨S_, .f32⟩
  | .hbm, ⟨44, _⟩ => ⟨S100000x256, .f32⟩
  | .hbm, ⟨45, _⟩ => ⟨S100000x256, .f32⟩
  | .hbm, ⟨46, _⟩ => ⟨S_, .i32⟩
  | .hbm, ⟨47, _⟩ => ⟨S400000, .i32⟩
  | .hbm, ⟨48, _⟩ => ⟨S400000, .i1⟩
  | .hbm, ⟨49, _⟩ => ⟨S_, .i32⟩
  | .hbm, ⟨50, _⟩ => ⟨S400000, .i32⟩
  | .hbm, ⟨51, _⟩ => ⟨S400000, .i32⟩
  | .hbm, ⟨52, _⟩ => ⟨S400000, .i32⟩
  | .hbm, ⟨53, _⟩ => ⟨S400000x1, .i32⟩
  | .hbm, ⟨54, _⟩ => ⟨S400000x256, .f32⟩
  | .hbm, ⟨55, _⟩ => ⟨S_, .f32⟩
  | .hbm, ⟨56, _⟩ => ⟨S100000x256, .f32⟩
  | .hbm, ⟨57, _⟩ => ⟨S400000x1, .i32⟩
  | .hbm, ⟨58, _⟩ => ⟨S100000x256, .f32⟩
  | .hbm, ⟨59, _⟩ => ⟨S_, .f32⟩
  | .hbm, ⟨60, _⟩ => ⟨S400000, .f32⟩
  | .hbm, ⟨61, _⟩ => ⟨S_, .f32⟩
  | .hbm, ⟨62, _⟩ => ⟨S100000, .f32⟩
  | .hbm, ⟨63, _⟩ => ⟨S400000x1, .i32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x256, .f32⟩
  | .hbm, ⟨70, _⟩ => ⟨S100000x256, .f32⟩
  | .hbm, ⟨71, _⟩ => ⟨S100000x64, .f32⟩
  | .hbm, ⟨72, _⟩ => ⟨S1x64, .f32⟩
  | .hbm, ⟨73, _⟩ => ⟨S100000x64, .f32⟩
  | .hbm, ⟨74, _⟩ => ⟨S100000x64, .f32⟩
  | .hbm, ⟨75, _⟩ => ⟨S100000x64, .f32⟩
  | .hbm, ⟨76, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S100000x1_S100000x256_0_1 : S100000x1.BroadcastsInDim S100000x256 (![0, 1] : Fin 2 → Fin S100000x256.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x128_S400000x1_S400000x128_1_0_n_n_0_1_1128_wf : GatherDims.WF S100000x128 S400000x1 S400000x128 [1] [0] [] [0] [] 1 ![1, 128]
  scatter_S100000x128_S400000x1_S400000x128_1_0_0_1_wf : ScatterDims.WF S100000x128 S400000x1 S400000x128 [1] [0] [0] 1
  scatter_S100000_S400000x1_S400000_n_0_0_1_wf : ScatterDims.WF S100000 S400000x1 S400000 [] [0] [0] 1
  dot_S100000x128_S128x256_S100000x256_1_0_0_1_n_n_wf : DotDims.WF S100000x128 S128x256 S100000x256 [1] [0] [0] [1] [] []
  gather_S100000x256_S400000x1_S400000x256_1_0_n_n_0_1_1256_wf : GatherDims.WF S100000x256 S400000x1 S400000x256 [1] [0] [] [0] [] 1 ![1, 256]
  scatter_S100000x256_S400000x1_S400000x256_1_0_0_1_wf : ScatterDims.WF S100000x256 S400000x1 S400000x256 [1] [0] [0] 1
  dot_S100000x256_S256x64_S100000x64_1_0_0_1_n_n_wf : DotDims.WF S100000x256 S256x64 S100000x64 [1] [0] [0] [1] [] []

variable [Facts₀]

def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf
def scatter_S100000x128_S400000x1_S400000x128_1_0_0_1 : ScatterDims S100000x128 S400000x1 S400000x128 where
  updateWindowDims := [1]
  insertedWindowDims := [0]
  scatterDimsToOperandDims := [0]
  indexVectorDim := 1
  wf := scatter_S100000x128_S400000x1_S400000x128_1_0_0_1_wf
def scatter_S100000_S400000x1_S400000_n_0_0_1 : ScatterDims S100000 S400000x1 S400000 where
  updateWindowDims := []
  insertedWindowDims := [0]
  scatterDimsToOperandDims := [0]
  indexVectorDim := 1
  wf := scatter_S100000_S400000x1_S400000_n_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def gather_S100000x256_S400000x1_S400000x256_1_0_n_n_0_1_1256 : GatherDims S100000x256 S400000x1 S400000x256 where
  offsetDims := [1]
  collapsedSliceDims := [0]
  operandBatchingDims := []
  startIndicesBatchingDims := []
  startIndexMap := [0]
  indexVectorDim := 1
  sliceSizes := ![1, 256]
  wf := gather_S100000x256_S400000x1_S400000x256_1_0_n_n_0_1_1256_wf
def scatter_S100000x256_S400000x1_S400000x256_1_0_0_1 : ScatterDims S100000x256 S400000x1 S400000x256 where
  updateWindowDims := [1]
  insertedWindowDims := [0]
  scatterDimsToOperandDims := [0]
  indexVectorDim := 1
  wf := scatter_S100000x256_S400000x1_S400000x256_1_0_0_1_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf

class Facts : Prop extends Facts₀ where

variable [Facts]
-- ==== Proof.LibDot2.lean ====
/-
  A matrix product at the ideal instance, read at an entry.

  For two rank-2 operands of shapes [M, K] and [K, N] whose dimension numbers contract the left operand's second
  axis with the right operand's first, the product into a zero accumulator is, at row `p` and column `j`, the
  plain sum over `a : Fin K` of `l (p, a) * r (a, j)` on the extended reals. The dimension numbers enter only
  through four coordinate facts (which coordinate of each operand is the output's and which is the contracted
  one); a caller proves those four for its own record and gets the sum.
-/
import Idealize.ShloMosaic.Lib.ValueIdx
import Idealize.ShloMosaic.PureOps.Ideal.Laws

noncomputable section

namespace Cert.Lib.Dot2

open Idealize.ShloMosaic Idealize.ShloMosaic.ValueIdx

/-- The contraction sum of a rank-2 by rank-2 product, re-indexed from the record's one-axis contraction index to
    `Fin K`: the left operand is read along row `p`, the right along column `j`. -/
theorem contraction_ix2 {M K N : Nat} (D : DotDims ⟨2, ![M, K]⟩ ⟨2, ![K, N]⟩ ⟨2, ![M, N]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : (⟨2, ![M, K]⟩ : Shape).Idx → EReal) (r : (⟨2, ![K, N]⟩ : Shape).Idx → EReal) (p : Fin M) (j : Fin N) :
    ∑ k : D.contr.Idx, l (D.lhsIdx (ix2 p j) k) * r (D.rhsIdx (ix2 p j) k) = ∑ a : Fin K, l (ix2 p a) * r (ix2 a j) := by
  rw [← Equiv.sum_comp (contrEquiv1 D K hr hs).symm]
  refine Finset.sum_congr rfl fun a _ => ?_
  have hk := contrEquiv1_symm_val D K hr hs a
  have el : D.lhsIdx (ix2 p j) ((contrEquiv1 D K hr hs).symm a) = ix2 p a := funext fun d => Fin.ext (by
    match d with
    | ⟨0, _⟩ => exact hl0 _ _
    | ⟨1, _⟩ => exact (hl1 _ _).trans hk)
  have er : D.rhsIdx (ix2 p j) ((contrEquiv1 D K hr hs).symm a) = ix2 a j := funext fun d => Fin.ext (by
    match d with
    | ⟨0, _⟩ => exact (hr0 _ _).trans hk
    | ⟨1, _⟩ => exact hr1 _ _)
  rw [el, er]

/-- A kernel's matrix product into the zero accumulator, at the ideal instance, read at `(p, j)`. -/
theorem matmul_zero_ix2 {M K N : Nat} {φ₁ φ₂ : FTy} (D : DotDims ⟨2, ![M, K]⟩ ⟨2, ![K, N]⟩ ⟨2, ![M, N]⟩)
    (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : FVec Ideal ⟨2, ![M, K]⟩ φ₁) (r : FVec Ideal ⟨2, ![K, N]⟩ φ₂) (p : Fin M) (j : Fin N) :
    matmul D prec l r (constant (F := Ideal) ⟨2, ![M, N]⟩ .f32 0x00000000#32) (ix2 p j)
      = ∑ a : Fin K, l (ix2 p a) * r (ix2 a j) := by
  show FloatOps.matmul D prec l r (constant (F := Ideal) ⟨2, ![M, N]⟩ .f32 0x00000000#32) (ix2 p j) = _
  rw [Ideal.matmul_constant_zero_apply]
  exact contraction_ix2 D hr hs hl0 hl1 hr0 hr1 l r p j

end Cert.Lib.Dot2

end
-- ==== Proof.Body.lean ====
/-
  One row block of a SAGE layer's dense combine, read at an entry, on the extended reals.

  Each layer's kernel body takes a block of aggregated neighbour features `A`, the matching block of the layer's own
  input `X`, the two weight matrices and the bias row, and stores `A·Wl + X·Wr + b` (layer 1 then clamps at zero).
  At the ideal instance the roundings to bf16 are the identity and a matrix product into a zero accumulator is the
  plain sum over the contracted axis, so the stored block at row `r`, column `j` is
  `(Σₐ A(r,a)·Wl(a,j) + Σₐ X(r,a)·Wr(a,j)) + b(0,j)`: `comb` below.
-/
import proofs.«174197_j1168231104600_1_alg».proof.Proof.Gen.KernelIdeal.Skeleton
import proofs.«174197_j1168231104600_1_alg».proof.Proof.LibDot2
import Idealize.ShloMosaic.Lib.ValueIdx
import Idealize.ShloMosaic.Lib.ValueLayout
import Idealize.ShloMosaic.Lib.Pipeline.Value
import Idealize.ShloMosaic.PureOps.Ideal.Laws

noncomputable section

namespace Cert.Combine

open Idealize.ShloMosaic Idealize.ShloMosaic.ValueIdx

/-- The dense combine at row `p`, column `j`: aggregated features through `Wl`, own features through `Wr`, plus
    the bias row. -/
def comb {M K N : Nat} (A X : (⟨2, ![M, K]⟩ : Shape).Idx → EReal) (Wl Wr : (⟨2, ![K, N]⟩ : Shape).Idx → EReal)
    (b : (⟨2, ![1, N]⟩ : Shape).Idx → EReal) (p : Fin M) (j : Fin N) : EReal :=
  (∑ a : Fin K, A (ix2 p a) * Wl (ix2 a j) + ∑ a : Fin K, X (ix2 p a) * Wr (ix2 a j)) + b (ix2 (0 : Fin 1) j)

end Cert.Combine

namespace Cert.KernelIdeal.Body

open Cert.KernelIdeal Cert.KernelIdeal.Gen Idealize.ShloMosaic Idealize.ShloMosaic.ValueIdx Cert.Combine

/-! ## Which coordinate of each operand a product's entry reads: the two records' axis facts -/

theorem d1_l0 (i : S5000x256.Idx) (q : dot_S5000x128_S128x256_S5000x256_1_0_0_1_n_n.contr.Idx) :
    (dot_S5000x128_S128x256_S5000x256_1_0_0_1_n_n.lhsIdx i q 0).val = (i 0).val := by
  unfold DotDims.lhsIdx
  rw [dif_neg (show ¬(0 : Fin S5000x128.rank) ∈ dot_S5000x128_S128x256_S5000x256_1_0_0_1_n_n.lhsBatch by decide), dif_pos (show (0 : Fin S5000x128.rank) ∈ dot_S5000x128_S128x256_S5000x256_1_0_0_1_n_n.lhsNonContracting by decide)]
  rfl
theorem d1_l1 (i : S5000x256.Idx) (q : dot_S5000x128_S128x256_S5000x256_1_0_0_1_n_n.contr.Idx) :
    (dot_S5000x128_S128x256_S5000x256_1_0_0_1_n_n.lhsIdx i q 1).val = (q ⟨0, by decide⟩).val :=
  dot_S5000x128_S128x256_S5000x256_1_0_0_1_n_n.lhsIdx_val_of_single rfl i q
theorem d1_r0 (i : S5000x256.Idx) (q : dot_S5000x128_S128x256_S5000x256_1_0_0_1_n_n.contr.Idx) :
    (dot_S5000x128_S128x256_S5000x256_1_0_0_1_n_n.rhsIdx i q 0).val = (q ⟨0, by decide⟩).val :=
  dot_S5000x128_S128x256_S5000x256_1_0_0_1_n_n.rhsIdx_val_of_single rfl i q
theorem d1_r1 (i : S5000x256.Idx) (q : dot_S5000x128_S128x256_S5000x256_1_0_0_1_n_n.contr.Idx) :
    (dot_S5000x128_S128x256_S5000x256_1_0_0_1_n_n.rhsIdx i q 1).val = (i 1).val := by
  unfold DotDims.rhsIdx
  rw [dif_neg (show ¬(1 : Fin S128x256.rank) ∈ dot_S5000x128_S128x256_S5000x256_1_0_0_1_n_n.rhsBatch by decide), dif_pos (show (1 : Fin S128x256.rank) ∈ dot_S5000x128_S128x256_S5000x256_1_0_0_1_n_n.rhsNonContracting by decide)]
  rfl

theorem d2_l0 (i : S5000x64.Idx) (q : dot_S5000x256_S256x64_S5000x64_1_0_0_1_n_n.contr.Idx) :
    (dot_S5000x256_S256x64_S5000x64_1_0_0_1_n_n.lhsIdx i q 0).val = (i 0).val := by
  unfold DotDims.lhsIdx
  rw [dif_neg (show ¬(0 : Fin S5000x256.rank) ∈ dot_S5000x256_S256x64_S5000x64_1_0_0_1_n_n.lhsBatch by decide), dif_pos (show (0 : Fin S5000x256.rank) ∈ dot_S5000x256_S256x64_S5000x64_1_0_0_1_n_n.lhsNonContracting by decide)]
  rfl
theorem d2_l1 (i : S5000x64.Idx) (q : dot_S5000x256_S256x64_S5000x64_1_0_0_1_n_n.contr.Idx) :
    (dot_S5000x256_S256x64_S5000x64_1_0_0_1_n_n.lhsIdx i q 1).val = (q ⟨0, by decide⟩).val :=
  dot_S5000x256_S256x64_S5000x64_1_0_0_1_n_n.lhsIdx_val_of_single rfl i q
theorem d2_r0 (i : S5000x64.Idx) (q : dot_S5000x256_S256x64_S5000x64_1_0_0_1_n_n.contr.Idx) :
    (dot_S5000x256_S256x64_S5000x64_1_0_0_1_n_n.rhsIdx i q 0).val = (q ⟨0, by decide⟩).val :=
  dot_S5000x256_S256x64_S5000x64_1_0_0_1_n_n.rhsIdx_val_of_single rfl i q
theorem d2_r1 (i : S5000x64.Idx) (q : dot_S5000x256_S256x64_S5000x64_1_0_0_1_n_n.contr.Idx) :
    (dot_S5000x256_S256x64_S5000x64_1_0_0_1_n_n.rhsIdx i q 1).val = (i 1).val := by
  unfold DotDims.rhsIdx
  rw [dif_neg (show ¬(1 : Fin S256x64.rank) ∈ dot_S5000x256_S256x64_S5000x64_1_0_0_1_n_n.rhsBatch by decide), dif_pos (show (1 : Fin S256x64.rank) ∈ dot_S5000x256_S256x64_S5000x64_1_0_0_1_n_n.rhsNonContracting by decide)]
  rfl

/-! ## The stored blocks at an entry -/

/-- Layer 1's stored block: the combine of the loaded blocks, clamped below at the zero word. -/
theorem pay0_apply (x0 x1 : FVec Ideal S5000x128 .f32) (w0 w1 : FVec Ideal S128x256 .bf16) (b : FVec Ideal S1x256 .f32)
    (r : Fin 5000) (j : Fin 256) :
    k0_pay1 (F := Ideal) x0 x1 w0 w1 b (ix2 r j)
      = max (comb x0 x1 w0 w1 b r j) (Ideal.ofBits .f32 0x00000000#32) := by
  unfold k0_pay1 comb
  simp only [shapeCast_self]
  rw [maximumf_apply, addf_apply, addf_apply, broadcast_apply,
    Cert.Lib.Dot2.matmul_zero_ix2 dot_S5000x128_S128x256_S5000x256_1_0_0_1_n_n none rfl rfl d1_l0 d1_l1 d1_r0 d1_r1,
    Cert.Lib.Dot2.matmul_zero_ix2 dot_S5000x128_S128x256_S5000x256_1_0_0_1_n_n none rfl rfl d1_l0 d1_l1 d1_r0 d1_r1,
    broadcastTo_1b_ab_apply]
  rfl

/-- Layer 2's stored block: the combine of the loaded blocks. -/
theorem pay1_apply (x0 x1 : FVec Ideal S5000x256 .f32) (w0 w1 : FVec Ideal S256x64 .bf16) (b : FVec Ideal S1x64 .f32)
    (r : Fin 5000) (j : Fin 64) :
    k1_pay1 (F := Ideal) x0 x1 w0 w1 b (ix2 r j) = comb x0 x1 w0 w1 b r j := by
  unfold k1_pay1 comb
  simp only [shapeCast_self]
  rw [addf_apply, addf_apply,
    Cert.Lib.Dot2.matmul_zero_ix2 dot_S5000x256_S256x64_S5000x64_1_0_0_1_n_n none rfl rfl d2_l0 d2_l1 d2_r0 d2_r1,
    Cert.Lib.Dot2.matmul_zero_ix2 dot_S5000x256_S256x64_S5000x64_1_0_0_1_n_n none rfl rfl d2_l0 d2_l1 d2_r0 d2_r1,
    broadcastTo_1b_ab_apply]
  rfl

end Cert.KernelIdeal.Body

end
-- ==== Proof.Region0.lean ====
/-
  Layer 1's region: its output array, as one function of the arrays the region is entered with.

  The region walks the 100000 rows in 20 blocks of 5000. At block `t` the two feature windows hold rows
  `5000·t … 5000·t + 4999` of their arrays, the weight and bias windows hold their whole arrays, and the body writes
  back the clamped combine of those blocks. The 20 written blocks tile the output, so the array ends holding, at row
  `p` and column `j`, `max ((Σₐ A(p,a)·Wl(a,j) + Σₐ X(p,a)·Wr(a,j)) + b(0,j)) 0` of the entry arrays: `hidden`.
-/
import proofs.«174197_j1168231104600_1_alg».proof.Proof.Gen.KernelIdeal.Frame
import proofs.«174197_j1168231104600_1_alg».proof.Proof.Body
import Idealize.ShloMosaic.Lib.Pipeline.Value

set_option maxRecDepth 16384

noncomputable section

namespace Cert.KernelIdeal.Region0

open Cert.KernelIdeal Cert.KernelIdeal.Gen Idealize.ShloMosaic Idealize.ShloMosaic.TcCoe Idealize.SL.Sem
open Idealize.ShloMosaic.ValueIdx Cert.Combine
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## The entry arrays and the blocks of them a point holds, by their literal shapes -/

abbrev agg (c : Dev nD) : FVec Ideal S100000x128 .f32 := V c main_v22
abbrev feat (c : Dev nD) : FVec Ideal S100000x128 .f32 := V c main_arg0
abbrev wl (c : Dev nD) : FVec Ideal S128x256 .bf16 := V c main_v23
abbrev wr (c : Dev nD) : FVec Ideal S128x256 .bf16 := V c main_v24
abbrev bias (c : Dev nD) : FVec Ideal S1x256 .f32 := V c main_v25

abbrev aggBlk (c : Dev nD) (t : Fin cfg0.N) : FVec Ideal S5000x128 .f32 := iblk0 V c 0 t
abbrev featBlk (c : Dev nD) (t : Fin cfg0.N) : FVec Ideal S5000x128 .f32 := iblk0 V c 1 t
abbrev wlBlk (c : Dev nD) (t : Fin cfg0.N) : FVec Ideal S128x256 .bf16 := iblk0 V c 2 t
abbrev wrBlk (c : Dev nD) (t : Fin cfg0.N) : FVec Ideal S128x256 .bf16 := iblk0 V c 3 t
abbrev biasBlk (c : Dev nD) (t : Fin cfg0.N) : FVec Ideal S1x256 .f32 := iblk0 V c 4 t

/-- What the output array ends holding: the clamped combine of the entry arrays, entry by entry. -/
def hidden (c : Dev nD) : FVec Ideal S100000x256 .f32 := fun i =>
  max (comb (agg V c) (feat V c) (wl V c) (wr V c) (bias V c) ⟨(i 0).val, idx2_lt0 i⟩ ⟨(i 1).val, idx2_lt1 i⟩)
    (Ideal.ofBits .f32 0x00000000#32)

/-! ## Where each window's block sits at a point -/

/-- The block indices over the grid: the feature windows and the output move with the point along the rows; the
    weights and the bias stay at their one block. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `r` of the aggregated-feature block at point `t` is row `5000·t + r` of the array. -/
theorem read_agg (c : Dev nD) (t : Fin cfg0.N) (r : Fin 5000) (hr : 5000 * t.val + r.val < 100000) (a : Fin 128) :
    aggBlk V c t (ix2 r a) = agg V c (ix2 ⟨5000 * t.val + r.val, hr⟩ a) := by
  obtain ⟨e0, e1, -⟩ := idx_facts t
  show V c main_v22 (((cfg0.win 0).blk t).view.emb (ix2 r a)) = V c main_v22 (ix2 ⟨5000 * t.val + r.val, hr⟩ a)
  refine congrArg (V c main_v22) ?_
  funext d; apply Fin.ext
  match d with
  | ⟨0, _⟩ => show win0_0.index t (0 : Fin 2) * 5000 + 1 * r.val = 5000 * t.val + r.val; omega
  | ⟨1, _⟩ => show win0_0.index t (1 : Fin 2) * 128 + 1 * a.val = a.val; omega

/-- Row `r` of the own-feature block at point `t` is row `5000·t + r` of the array. -/
theorem read_feat (c : Dev nD) (t : Fin cfg0.N) (r : Fin 5000) (hr : 5000 * t.val + r.val < 100000) (a : Fin 128) :
    featBlk V c t (ix2 r a) = feat V c (ix2 ⟨5000 * t.val + r.val, hr⟩ a) := by
  obtain ⟨-, -, e0, e1, -⟩ := idx_facts t
  show V c main_arg0 (((cfg0.win 1).blk t).view.emb (ix2 r a)) = V c main_arg0 (ix2 ⟨5000 * t.val + r.val, hr⟩ a)
  refine congrArg (V c main_arg0) ?_
  funext d; apply Fin.ext
  match d with
  | ⟨0, _⟩ => show win0_1.index t (0 : Fin 2) * 5000 + 1 * r.val = 5000 * t.val + r.val; omega
  | ⟨1, _⟩ => show win0_1.index t (1 : Fin 2) * 128 + 1 * a.val = a.val; omega

/-- The left weight window holds its whole array at every point. -/
theorem read_wl (c : Dev nD) (t : Fin cfg0.N) (a : Fin 128) (j : Fin 256) :
    wlBlk V c t (ix2 a j) = wl V c (ix2 a j) := by
  obtain ⟨-, -, -, -, e0, e1, -⟩ := idx_facts t
  show V c main_v23 (((cfg0.win 2).blk t).view.emb (ix2 a j)) = V c main_v23 (ix2 a j)
  refine congrArg (V c main_v23) ?_
  funext d; apply Fin.ext
  match d with
  | ⟨0, _⟩ => show win0_2.index t (0 : Fin 2) * 128 + 1 * a.val = a.val; omega
  | ⟨1, _⟩ => show win0_2.index t (1 : Fin 2) * 256 + 1 * j.val = j.val; omega

/-- The right weight window holds its whole array at every point. -/
theorem read_wr (c : Dev nD) (t : Fin cfg0.N) (a : Fin 128) (j : Fin 256) :
    wrBlk V c t (ix2 a j) = wr V c (ix2 a j) := by
  obtain ⟨-, -, -, -, -, -, e0, e1, -⟩ := idx_facts t
  show V c main_v24 (((cfg0.win 3).blk t).view.emb (ix2 a j)) = V c main_v24 (ix2 a j)
  refine congrArg (V c main_v24) ?_
  funext d; apply Fin.ext
  match d with
  | ⟨0, _⟩ => show win0_3.index t (0 : Fin 2) * 128 + 1 * a.val = a.val; omega
  | ⟨1, _⟩ => show win0_3.index t (1 : Fin 2) * 256 + 1 * j.val = j.val; omega

/-- The bias window holds its one row at every point. -/
theorem read_bias (c : Dev nD) (t : Fin cfg0.N) (u : Fin 1) (j : Fin 256) :
    biasBlk V c t (ix2 u j) = bias V c (ix2 u j) := by
  obtain ⟨-, -, -, -, -, -, -, -, e0, e1, -⟩ := idx_facts t
  show V c main_v25 (((cfg0.win 4).blk t).view.emb (ix2 u j)) = V c main_v25 (ix2 u j)
  refine congrArg (V c main_v25) ?_
  funext d; apply Fin.ext
  match d with
  | ⟨0, _⟩ => show win0_4.index t (0 : Fin 2) * 1 + 1 * u.val = u.val; omega
  | ⟨1, _⟩ => show win0_4.index t (1 : Fin 2) * 256 + 1 * j.val = j.val; omega

/-! ## What a point writes back -/

/-- At an index whose row is `5000·t + r` and whose column is `j`, `hidden` is the clamped combine of point `t`'s
    blocks at `(r, j)`. -/
theorem hidden_of_blk (c : Dev nD) (t : Fin cfg0.N) (r : Fin 5000) (j : Fin 256) (i : S100000x256.Idx)
    (h0 : (i 0).val = 5000 * t.val + r.val) (h1 : (i 1).val = j.val) :
    hidden V c i = max (comb (aggBlk V c t) (featBlk V c t) (wlBlk V c t) (wrBlk V c t) (biasBlk V c t) r j)
      (Ideal.ofBits .f32 0x00000000#32) := by
  have hr : 5000 * t.val + r.val < 100000 := by have := idx2_lt0 i; omega
  have hp : (⟨(i 0).val, idx2_lt0 i⟩ : Fin 100000) = ⟨5000 * t.val + r.val, hr⟩ := Fin.ext h0
  have hj : (⟨(i 1).val, idx2_lt1 i⟩ : Fin 256) = j := Fin.ext h1
  unfold hidden comb
  rw [hp, hj]
  refine congrArg (fun z => max z (Ideal.ofBits .f32 0x00000000#32)) ?_
  refine congrArg₂ (· + ·) (congrArg₂ (· + ·) (Finset.sum_congr rfl fun a _ => ?_) (Finset.sum_congr rfl fun a _ => ?_)) ?_
  · rw [read_agg V c t r hr a, read_wl V c t a j]
  · rw [read_feat V c t r hr a, read_wr V c t a j]
  · rw [read_bias V c t 0 j]

/-- WHAT POINT `t` WRITES BACK is block `t` of `hidden`. -/
theorem flushed_eq (c : Dev nD) (t : Fin cfg0.N) :
    (dat0 V c).flushed 5 t = ((cfg0.win 5).blk t).view.read (Elt Ideal) (hidden V c) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x256) hz, View.ld_unit_zero (S := S1x256) hz]
  funext y
  obtain ⟨r, j, rfl⟩ : ∃ (r : Fin 5000) (j : Fin 256), y = ix2 r j := ⟨y 0, y 1, eq_ix2 y⟩
  obtain ⟨-, -, -, -, -, -, -, -, -, -, e0, e1⟩ := idx_facts t
  show k0_pay1 (F := Ideal) (aggBlk V c t) (featBlk V c t) (wlBlk V c t) (wrBlk V c t) (biasBlk V c t) (ix2 r j)
    = hidden V c (((cfg0.win 5).blk t).view.emb (ix2 r j))
  rw [Body.pay0_apply]
  refine (hidden_of_blk V c t r j _ ?_ ?_).symm
  · show win0_5.index t (0 : Fin 2) * 5000 + 1 * r.val = 5000 * t.val + r.val; omega
  · show win0_5.index t (1 : Fin 2) * 256 + 1 * j.val = j.val; omega

/-! ## The written blocks tile the array -/

/-- An index of the array is in point `t`'s block iff each coordinate is in the block's range on its axis. -/
theorem mem_blk (t : Fin cfg0.N) (i : S100000x256.Idx) :
    i ∈ ((cfg0.win 5).blk t).view.set ↔ ∀ a : Fin 2, win0_5.index t a * S5000x256.size a ≤ (i a).val ∧ (i a).val < win0_5.index t a * S5000x256.size a + S5000x256.size a := by
  show i ∈ ((View.whole main_v26).slice (win0_5.rect t)).set ↔ _
  rw [View.set_slice_whole, Rect.mem_set_unit]
  exact Iff.rfl

/-- Row `p` lies in the block of point `p / 5000`. -/
theorem cover (i : S100000x256.Idx) :
    ∃ t : Fin cfg0.N, (cfg0.win 5).flush t = true ∧ i ∈ ((cfg0.win 5).blk t).view.set := by
  have h0 : (i 0).val < 100000 := idx2_lt0 i
  have h1 : (i 1).val < 256 := idx2_lt1 i
  have hN : grid0.N = 20 := N_0
  have ht : (i 0).val / 5000 < cfg0.N := by show (i 0).val / 5000 < grid0.N; omega
  refine ⟨⟨(i 0).val / 5000, ht⟩, flush0_5 _, ?_⟩
  rw [mem_blk]
  obtain ⟨-, -, -, -, -, -, -, -, -, -, e0, e1⟩ := idx_facts ⟨(i 0).val / 5000, ht⟩
  intro a
  match a with
  | ⟨0, _⟩ =>
    show win0_5.index ⟨(i 0).val / 5000, ht⟩ (0 : Fin 2) * 5000 ≤ (i 0).val ∧ (i 0).val < win0_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_5.index ⟨(i 0).val / 5000, ht⟩ (1 : Fin 2) * 256 ≤ (i 1).val ∧ (i 1).val < win0_5.index ⟨(i 0).val / 5000, ht⟩ (1 : Fin 2) * 256 + 256
    rw [e1]; omega

/-- THE ARRAY after the region: `hidden` of the entry arrays. -/
theorem final (c : Dev nD) : (dat0 V c).arrAt 5 cfg0.N = hidden V c :=
  (dat0 V c).arrAt_eq_of_cover 5 (hidden V c) (fun t _ => flushed_eq V c t) cover

end Cert.KernelIdeal.Region0

end
-- ==== Proof.Region1.lean ====
/-
  Layer 2's region: its output array, as one function of the arrays the region is entered with.

  The region walks the 100000 rows in 20 blocks of 5000. At block `t` the two feature windows hold rows
  `5000·t … 5000·t + 4999` of their arrays, the weight and bias windows hold their whole arrays, and the body writes
  back the combine of those blocks. The 20 written blocks tile the output, so the array ends holding, at row `p` and
  column `j`, `(Σₐ A(p,a)·Wl(a,j) + Σₐ X(p,a)·Wr(a,j)) + b(0,j)` of the entry arrays: `out`.
-/
import proofs.«174197_j1168231104600_1_alg».proof.Proof.Gen.KernelIdeal.Frame
import proofs.«174197_j1168231104600_1_alg».proof.Proof.Body
import Idealize.ShloMosaic.Lib.Pipeline.Value

set_option maxRecDepth 16384

noncomputable section

namespace Cert.KernelIdeal.Region1

open Cert.KernelIdeal Cert.KernelIdeal.Gen Idealize.ShloMosaic Idealize.ShloMosaic.TcCoe Idealize.SL.Sem
open Idealize.ShloMosaic.ValueIdx Cert.Combine
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## The entry arrays and the blocks of them a point holds, by their literal shapes -/

abbrev agg (c : Dev nD) : FVec Ideal S100000x256 .f32 := V c main_v45
abbrev feat (c : Dev nD) : FVec Ideal S100000x256 .f32 := V c main_v26
abbrev wl (c : Dev nD) : FVec Ideal S256x64 .bf16 := V c main_v46
abbrev wr (c : Dev nD) : FVec Ideal S256x64 .bf16 := V c main_v47
abbrev bias (c : Dev nD) : FVec Ideal S1x64 .f32 := V c main_v48

abbrev aggBlk (c : Dev nD) (t : Fin cfg1.N) : FVec Ideal S5000x256 .f32 := iblk1 V c 0 t
abbrev featBlk (c : Dev nD) (t : Fin cfg1.N) : FVec Ideal S5000x256 .f32 := iblk1 V c 1 t
abbrev wlBlk (c : Dev nD) (t : Fin cfg1.N) : FVec Ideal S256x64 .bf16 := iblk1 V c 2 t
abbrev wrBlk (c : Dev nD) (t : Fin cfg1.N) : FVec Ideal S256x64 .bf16 := iblk1 V c 3 t
abbrev biasBlk (c : Dev nD) (t : Fin cfg1.N) : FVec Ideal S1x64 .f32 := iblk1 V c 4 t

/-- What the output array ends holding: the combine of the entry arrays, entry by entry. -/
def out (c : Dev nD) : FVec Ideal S100000x64 .f32 := fun i =>
  comb (agg V c) (feat V c) (wl V c) (wr V c) (bias V c) ⟨(i 0).val, idx2_lt0 i⟩ ⟨(i 1).val, idx2_lt1 i⟩

/-! ## Where each window's block sits at a point -/

/-- The block indices over the grid: the feature windows and the output move with the point along the rows; the
    weights and the bias stay at their one block. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `r` of the aggregated-feature block at point `t` is row `5000·t + r` of the array. -/
theorem read_agg (c : Dev nD) (t : Fin cfg1.N) (r : Fin 5000) (hr : 5000 * t.val + r.val < 100000) (a : Fin 256) :
    aggBlk V c t (ix2 r a) = agg V c (ix2 ⟨5000 * t.val + r.val, hr⟩ a) := by
  obtain ⟨e0, e1, -⟩ := idx_facts t
  show V c main_v45 (((cfg1.win 0).blk t).view.emb (ix2 r a)) = V c main_v45 (ix2 ⟨5000 * t.val + r.val, hr⟩ a)
  refine congrArg (V c main_v45) ?_
  funext d; apply Fin.ext
  match d with
  | ⟨0, _⟩ => show win1_0.index t (0 : Fin 2) * 5000 + 1 * r.val = 5000 * t.val + r.val; omega
  | ⟨1, _⟩ => show win1_0.index t (1 : Fin 2) * 256 + 1 * a.val = a.val; omega

/-- Row `r` of the own-feature block at point `t` is row `5000·t + r` of the array. -/
theorem read_feat (c : Dev nD) (t : Fin cfg1.N) (r : Fin 5000) (hr : 5000 * t.val + r.val < 100000) (a : Fin 256) :
    featBlk V c t (ix2 r a) = feat V c (ix2 ⟨5000 * t.val + r.val, hr⟩ a) := by
  obtain ⟨-, -, e0, e1, -⟩ := idx_facts t
  show V c main_v26 (((cfg1.win 1).blk t).view.emb (ix2 r a)) = V c main_v26 (ix2 ⟨5000 * t.val + r.val, hr⟩ a)
  refine congrArg (V c main_v26) ?_
  funext d; apply Fin.ext
  match d with
  | ⟨0, _⟩ => show win1_1.index t (0 : Fin 2) * 5000 + 1 * r.val = 5000 * t.val + r.val; omega
  | ⟨1, _⟩ => show win1_1.index t (1 : Fin 2) * 256 + 1 * a.val = a.val; omega

/-- The left weight window holds its whole array at every point. -/
theorem read_wl (c : Dev nD) (t : Fin cfg1.N) (a : Fin 256) (j : Fin 64) :
    wlBlk V c t (ix2 a j) = wl V c (ix2 a j) := by
  obtain ⟨-, -, -, -, e0, e1, -⟩ := idx_facts t
  show V c main_v46 (((cfg1.win 2).blk t).view.emb (ix2 a j)) = V c main_v46 (ix2 a j)
  refine congrArg (V c main_v46) ?_
  funext d; apply Fin.ext
  match d with
  | ⟨0, _⟩ => show win1_2.index t (0 : Fin 2) * 256 + 1 * a.val = a.val; omega
  | ⟨1, _⟩ => show win1_2.index t (1 : Fin 2) * 64 + 1 * j.val = j.val; omega

/-- The right weight window holds its whole array at every point. -/
theorem read_wr (c : Dev nD) (t : Fin cfg1.N) (a : Fin 256) (j : Fin 64) :
    wrBlk V c t (ix2 a j) = wr V c (ix2 a j) := by
  obtain ⟨-, -, -, -, -, -, e0, e1, -⟩ := idx_facts t
  show V c main_v47 (((cfg1.win 3).blk t).view.emb (ix2 a j)) = V c main_v47 (ix2 a j)
  refine congrArg (V c main_v47) ?_
  funext d; apply Fin.ext
  match d with
  | ⟨0, _⟩ => show win1_3.index t (0 : Fin 2) * 256 + 1 * a.val = a.val; omega
  | ⟨1, _⟩ => show win1_3.index t (1 : Fin 2) * 64 + 1 * j.val = j.val; omega

/-- The bias window holds its one row at every point. -/
theorem read_bias (c : Dev nD) (t : Fin cfg1.N) (u : Fin 1) (j : Fin 64) :
    biasBlk V c t (ix2 u j) = bias V c (ix2 u j) := by
  obtain ⟨-, -, -, -, -, -, -, -, e0, e1, -⟩ := idx_facts t
  show V c main_v48 (((cfg1.win 4).blk t).view.emb (ix2 u j)) = V c main_v48 (ix2 u j)
  refine congrArg (V c main_v48) ?_
  funext d; apply Fin.ext
  match d with
  | ⟨0, _⟩ => show win1_4.index t (0 : Fin 2) * 1 + 1 * u.val = u.val; omega
  | ⟨1, _⟩ => show win1_4.index t (1 : Fin 2) * 64 + 1 * j.val = j.val; omega

/-! ## What a point writes back -/

/-- At an index whose row is `5000·t + r` and whose column is `j`, `out` is the combine of point `t`'s blocks at
    `(r, j)`. -/
theorem out_of_blk (c : Dev nD) (t : Fin cfg1.N) (r : Fin 5000) (j : Fin 64) (i : S100000x64.Idx)
    (h0 : (i 0).val = 5000 * t.val + r.val) (h1 : (i 1).val = j.val) :
    out V c i = comb (aggBlk V c t) (featBlk V c t) (wlBlk V c t) (wrBlk V c t) (biasBlk V c t) r j := by
  have hr : 5000 * t.val + r.val < 100000 := by have := idx2_lt0 i; omega
  have hp : (⟨(i 0).val, idx2_lt0 i⟩ : Fin 100000) = ⟨5000 * t.val + r.val, hr⟩ := Fin.ext h0
  have hj : (⟨(i 1).val, idx2_lt1 i⟩ : Fin 64) = j := Fin.ext h1
  unfold out comb
  rw [hp, hj]
  refine congrArg₂ (· + ·) (congrArg₂ (· + ·) (Finset.sum_congr rfl fun a _ => ?_) (Finset.sum_congr rfl fun a _ => ?_)) ?_
  · rw [read_agg V c t r hr a, read_wl V c t a j]
  · rw [read_feat V c t r hr a, read_wr V c t a j]
  · rw [read_bias V c t 0 j]

/-- WHAT POINT `t` WRITES BACK is block `t` of `out`. -/
theorem flushed_eq (c : Dev nD) (t : Fin cfg1.N) :
    (dat1 V c).flushed 5 t = ((cfg1.win 5).blk t).view.read (Elt Ideal) (out V c) := by
  show (cfg1.win 5).cut (grid1.coords t) ((dat1 V c).after 5 t) = _
  rw [after1_5]
  unfold out1_5
  rw [View.canon_unit_zero hz]
  simp only [View.ld_unit_zero (S := S5000x256) hz, View.ld_unit_zero (S := S256x64) hz, View.ld_unit_zero (S := S1x64) hz]
  funext y
  obtain ⟨r, j, rfl⟩ : ∃ (r : Fin 5000) (j : Fin 64), y = ix2 r j := ⟨y 0, y 1, eq_ix2 y⟩
  obtain ⟨-, -, -, -, -, -, -, -, -, -, e0, e1⟩ := idx_facts t
  show k1_pay1 (F := Ideal) (aggBlk V c t) (featBlk V c t) (wlBlk V c t) (wrBlk V c t) (biasBlk V c t) (ix2 r j)
    = out V c (((cfg1.win 5).blk t).view.emb (ix2 r j))
  rw [Body.pay1_apply]
  refine (out_of_blk V c t r j _ ?_ ?_).symm
  · show win1_5.index t (0 : Fin 2) * 5000 + 1 * r.val = 5000 * t.val + r.val; omega
  · show win1_5.index t (1 : Fin 2) * 64 + 1 * j.val = j.val; omega

/-! ## The written blocks tile the array -/

/-- An index of the array is in point `t`'s block iff each coordinate is in the block's range on its axis. -/
theorem mem_blk (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v49).slice (win1_5.rect t)).set ↔ _
  rw [View.set_slice_whole, Rect.mem_set_unit]
  exact Iff.rfl

/-- Row `p` lies in the block of point `p / 5000`. -/
theorem cover (i : S100000x64.Idx) :
    ∃ t : Fin cfg1.N, (cfg1.win 5).flush t = true ∧ i ∈ ((cfg1.win 5).blk t).view.set := by
  have h0 : (i 0).val < 100000 := idx2_lt0 i
  have h1 : (i 1).val < 64 := idx2_lt1 i
  have hN : grid1.N = 20 := N_1
  have ht : (i 0).val / 5000 < cfg1.N := by show (i 0).val / 5000 < grid1.N; omega
  refine ⟨⟨(i 0).val / 5000, ht⟩, flush1_5 _, ?_⟩
  rw [mem_blk]
  obtain ⟨-, -, -, -, -, -, -, -, -, -, e0, e1⟩ := idx_facts ⟨(i 0).val / 5000, ht⟩
  intro a
  match a with
  | ⟨0, _⟩ =>
    show win1_5.index ⟨(i 0).val / 5000, ht⟩ (0 : Fin 2) * 5000 ≤ (i 0).val ∧ (i 0).val < win1_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_5.index ⟨(i 0).val / 5000, ht⟩ (1 : Fin 2) * 64 ≤ (i 1).val ∧ (i 1).val < win1_5.index ⟨(i 0).val / 5000, ht⟩ (1 : Fin 2) * 64 + 64
    rw [e1]; omega

/-- THE ARRAY after the region: `out` of the entry arrays. -/
theorem final (c : Dev nD) : (dat1 V c).arrAt 5 cfg1.N = out V c :=
  (dat1 V c).arrAt_eq_of_cover 5 (out V c) (fun t _ => flushed_eq V c t) cover

end Cert.KernelIdeal.Region1

end
-- ==== Proof.RefLayers.lean ====
/-
  The reference, layer by layer, read at an entry on the extended reals.

  Each SAGE layer of the reference is `agg·Wl + b + x·Wr`: two products with one contracted axis, each a plain sum at
  the ideal instance, with the bias row added between them. Moving the bias past the second product
  (`(s + b) + s' = (s + s') + b`: addition on the extended reals is commutative and associative) gives the combine the
  kernel's body computes. Layer 1 is then clamped at zero by `max` against a broadcast zero word; layer 2's aggregation
  reads layer 1's result, and is named here as one function of it (`aggHidden`).
-/
import proofs.«174197_j1168231104600_1_alg».proof.Proof.Gen.ReferenceIdeal.Read
import proofs.«174197_j1168231104600_1_alg».proof.Proof.Body
import Idealize.ShloMosaic.Lib.ValueIdx
import Idealize.ShloMosaic.Lib.ValueLayout

noncomputable section

namespace Cert.ReferenceIdeal.Layers

open Cert.ReferenceIdeal Cert.ReferenceIdeal.Read Idealize.ShloMosaic Idealize.ShloMosaic.ValueIdx Cert.Combine

/-! ## The bias row -/

/-- The bias as a one-row matrix: at `(u, j)` it is the bias at `j`. -/
theorem bias1_apply (x3 : FVec Ideal S256 .f32) (u : Fin 1) (j : Fin 256) :
    val_main_v24 (F := Ideal) x3 (ix2 u j) = x3 (ix1 j) := by
  rw [val_main_v24_apply]
  refine congrArg x3 ?_
  funext a; match a with | ⟨0, _⟩ => rfl

theorem bias2_apply (x6 : FVec Ideal S64 .f32) (u : Fin 1) (j : Fin 64) :
    val_main_v50 (F := Ideal) x6 (ix2 u j) = x6 (ix1 j) := by
  rw [val_main_v50_apply]
  refine congrArg x6 ?_
  funext a; match a with | ⟨0, _⟩ => rfl

/-- A bias vector recast as a one-row matrix is the same one-row matrix the reference broadcasts it to. -/
theorem cast_bias1 (x3 : FVec Ideal S256 .f32) (h : S256.ShapeCasts S1x256) :
    shapeCast S1x256 x3 h = val_main_v24 (F := Ideal) x3 := by
  funext i
  obtain ⟨u, j, rfl⟩ : ∃ (u : Fin 1) (j : Fin 256), i = ix2 u j := ⟨i 0, i 1, eq_ix2 i⟩
  rw [bias1_apply, shapeCast_a_1a_apply]

theorem cast_bias2 (x6 : FVec Ideal S64 .f32) (h : S64.ShapeCasts S1x64) :
    shapeCast S1x64 x6 h = val_main_v50 (F := Ideal) x6 := by
  funext i
  obtain ⟨u, j, rfl⟩ : ∃ (u : Fin 1) (j : Fin 64), i = ix2 u j := ⟨i 0, i 1, eq_ix2 i⟩
  rw [bias2_apply, shapeCast_a_1a_apply]

/-! ## Layer 1 -/

/-- Layer 1 of the reference at row `p`, column `j`: the combine of the aggregated features, the features, the two
    weight matrices and the bias row, clamped at the zero word. -/
theorem layer1_apply (x0 : FVec Ideal S100000x128 .f32) (x1 : IVec S2x400000 32) (x2 : FVec Ideal S128x256 .f32)
    (x3 : FVec Ideal S256 .f32) (x4 : FVec Ideal S128x256 .f32) (p : Fin 100000) (j : Fin 256) :
    val_main_v29 (F := Ideal) x0 x1 x2 x3 x4 (ix2 p j)
      = max (comb (val_main_v22 (F := Ideal) x0 x1) x0 x2 x4 (val_main_v24 (F := Ideal) x3) p j) (Ideal.ofBits .f32 0x00000000#32) := by
  have el : ∀ k : Fin 128, lidx_main_v23 (ix2 p j) k = ix2 p k := fun k => funext fun a => by
    match a with | ⟨0, _⟩ => rfl | ⟨1, _⟩ => rfl
  have er : ∀ k : Fin 128, ridx_main_v23 (ix2 p j) k = ix2 k j := fun k => funext fun a => by
    match a with | ⟨0, _⟩ => rfl | ⟨1, _⟩ => rfl
  have el' : ∀ k : Fin 128, lidx_main_v27 (ix2 p j) k = ix2 p k := fun k => funext fun a => by
    match a with | ⟨0, _⟩ => rfl | ⟨1, _⟩ => rfl
  have er' : ∀ k : Fin 128, ridx_main_v27 (ix2 p j) k = ix2 k j := fun k => funext fun a => by
    match a with | ⟨0, _⟩ => rfl | ⟨1, _⟩ => rfl
  have eb : idx_main_v25 (ix2 p j) = ix2 (0 : Fin 1) j := funext fun a => by
    match a with | ⟨0, _⟩ => rfl | ⟨1, _⟩ => rfl
  rw [val_main_v29_apply, val_main_v28_apply, val_main_v26_apply, val_main_v23_apply, val_main_v27_apply, val_main_v25_apply,
    val_main_call0_v0_apply, val_main_call0_cst_apply]
  simp only [el, er, el', er', eb]
  unfold comb
  show max ((_ + _) + _) _ = max ((_ + _) + _) _
  rw [add_right_comm]
  rfl

/-! ## Layer 2 -/

/-- The mean aggregation of layer 2 as one function of the hidden features `h` it gathers from and of the edge
    list: the reference's own operations, with `h` in the place of layer 1's result. -/
def aggHidden (h : FVec Ideal S100000x256 .f32) (x1 : IVec S2x400000 32) : FVec Ideal S100000x256 .f32 :=
  Host.divf (F := Ideal)
    (Host.scatterAdd (F := Ideal) scatter_S100000x256_S400000x1_S400000x256_1_0_0_1 (val_main_v37 (F := Ideal)) (val_main_v38 (F := Ideal) x1)
      (Host.gather gather_S100000x256_S400000x1_S400000x256_1_0_n_n_0_1_1256 h (val_main_v35 (F := Ideal) x1)))
    (val_main_v47 (F := Ideal) x1)

/-- The reference's layer-2 aggregate is `aggHidden` of its layer-1 result. -/
theorem agg2_eq (x0 : FVec Ideal S100000x128 .f32) (x1 : IVec S2x400000 32) (x2 : FVec Ideal S128x256 .f32)
    (x3 : FVec Ideal S256 .f32) (x4 : FVec Ideal S128x256 .f32) :
    val_main_v48 (F := Ideal) x0 x1 x2 x3 x4 = aggHidden (val_main_v29 (F := Ideal) x0 x1 x2 x3 x4) x1 := by
  rfl

/-- Layer 2 of the reference at row `p`, column `j`: the combine of the aggregated hidden features, the hidden
    features, the two weight matrices and the bias row. -/
theorem layer2_apply (x0 : FVec Ideal S100000x128 .f32) (x1 : IVec S2x400000 32) (x2 : FVec Ideal S128x256 .f32)
    (x3 : FVec Ideal S256 .f32) (x4 : FVec Ideal S128x256 .f32) (x5 : FVec Ideal S256x64 .f32) (x6 : FVec Ideal S64 .f32)
    (x7 : FVec Ideal S256x64 .f32) (p : Fin 100000) (j : Fin 64) :
    val_main_v54 (F := Ideal) x0 x1 x2 x3 x4 x5 x6 x7 (ix2 p j)
      = comb (val_main_v48 (F := Ideal) x0 x1 x2 x3 x4) (val_main_v29 (F := Ideal) x0 x1 x2 x3 x4) x5 x7 (val_main_v50 (F := Ideal) x6) p j := by
  have el : ∀ k : Fin 256, lidx_main_v49 (ix2 p j) k = ix2 p k := fun k => funext fun a => by
    match a with | ⟨0, _⟩ => rfl | ⟨1, _⟩ => rfl
  have er : ∀ k : Fin 256, ridx_main_v49 (ix2 p j) k = ix2 k j := fun k => funext fun a => by
    match a with | ⟨0, _⟩ => rfl | ⟨1, _⟩ => rfl
  have el' : ∀ k : Fin 256, lidx_main_v53 (ix2 p j) k = ix2 p k := fun k => funext fun a => by
    match a with | ⟨0, _⟩ => rfl | ⟨1, _⟩ => rfl
  have er' : ∀ k : Fin 256, ridx_main_v53 (ix2 p j) k = ix2 k j := fun k => funext fun a => by
    match a with | ⟨0, _⟩ => rfl | ⟨1, _⟩ => rfl
  have eb : idx_main_v51 (ix2 p j) = ix2 (0 : Fin 1) j := funext fun a => by
    match a with | ⟨0, _⟩ => rfl | ⟨1, _⟩ => rfl
  rw [val_main_v54_apply, val_main_v52_apply, val_main_v49_apply, val_main_v53_apply, val_main_v51_apply]
  simp only [el, er, el', er', eb]
  unfold comb
  show (_ + _) + _ = (_ + _) + _
  rw [add_right_comm]

end Cert.ReferenceIdeal.Layers

end
-- ==== Proof.Entry.lean ====
/-
  What the two regions are entered with, as functions of the launch memory.

  Before layer 1's region the host has aggregated the neighbours' features (gather along the edge sources,
  scatter-add to the edge targets, divide by the clamped in-degree), rounded the two weight matrices to bf16 (the
  identity on the extended reals) and recast the bias as a one-row matrix. Between the regions it does the same with
  layer 1's result in the features' place. The aggregation is the very chain of operations the reference applies, so it
  is carried here as the reference's own stage functions, never opened.
-/
import proofs.«174197_j1168231104600_1_alg».proof.Proof.Gen.KernelIdeal.Frame
import proofs.«174197_j1168231104600_1_alg».proof.Proof.Gen.ReferenceIdeal.Read
import proofs.«174197_j1168231104600_1_alg».proof.Proof.RefLayers
import Idealize.ShloMosaic.Lib.StableHlo.Run

set_option maxRecDepth 16384

noncomputable section

namespace Cert.KernelIdeal.Entry

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-! ## Layer 1's region -/

/-- The aggregated features are the reference's aggregation of the launch features and edges. -/
theorem V1_agg (c : Dev nD) :
    V1 m ρ c main_v22 = Cert.ReferenceIdeal.Read.val_main_v22 (F := Ideal) (m ((c : Thread nD τ).loc main_arg0)) (m ((c : Thread nD τ).loc main_arg1)) := by
  show StableHlo.after hostOps0 (W0 m ρ c) (Proc.devRef .tc main_v22) = _
  after_results_simp <;> rfl

theorem V1_feat (c : Dev nD) : V1 m ρ c main_arg0 = (m ((c : Thread nD τ).loc main_arg0)) := by
  show StableHlo.after hostOps0 (W0 m ρ c) (Proc.devRef .tc main_arg0) = _
  after_results_simp <;> rfl

/-- Rounding a weight matrix to bf16 changes nothing on the extended reals. -/
theorem V1_wl (c : Dev nD) : (V1 m ρ c main_v23 : S128x256.Idx → EReal) = (m ((c : Thread nD τ).loc main_arg2)) := by
  show StableHlo.after hostOps0 (W0 m ρ c) (Proc.devRef .tc main_v23) = _
  after_results_simp <;> rfl

theorem V1_wr (c : Dev nD) : (V1 m ρ c main_v24 : S128x256.Idx → EReal) = (m ((c : Thread nD τ).loc main_arg4)) := by
  show StableHlo.after hostOps0 (W0 m ρ c) (Proc.devRef .tc main_v24) = _
  after_results_simp <;> rfl

theorem V1_bias (c : Dev nD) :
    V1 m ρ c main_v25 = shapeCast S1x256 (m ((c : Thread nD τ).loc main_arg3)) shapeCasts_S256_S1x256 := by
  show StableHlo.after hostOps0 (W0 m ρ c) (Proc.devRef .tc main_v25) = _
  after_results_simp <;> rfl

/-! ## Between the regions: what layer 1's region leaves beside its own arrays -/

/-- The edge sources, computed before layer 1's region, are still there after it. -/
theorem W2_src (c : Dev nD) :
    W2 m ρ c (Proc.devRef .tc main_v1) = Cert.ReferenceIdeal.Read.val_main_v1 (F := Ideal) (m ((c : Thread nD τ).loc main_arg1)) :=
  (W2_of_ne m ρ c main_v1 (by decide)).trans (by
    show StableHlo.after hostOps0 (W0 m ρ c) (Proc.devRef .tc main_v1) = _
    after_results_simp <;> rfl)

/-- So are the edge targets. -/
theorem W2_dst (c : Dev nD) :
    W2 m ρ c (Proc.devRef .tc main_v3) = Cert.ReferenceIdeal.Read.val_main_v3 (F := Ideal) (m ((c : Thread nD τ).loc main_arg1)) :=
  (W2_of_ne m ρ c main_v3 (by decide)).trans (by
    show StableHlo.after hostOps0 (W0 m ρ c) (Proc.devRef .tc main_v3) = _
    after_results_simp <;> rfl)

theorem W2_arg5 (c : Dev nD) : W2 m ρ c (Proc.devRef .tc main_arg5) = (m ((c : Thread nD τ).loc main_arg5)) :=
  (W2_of_ne m ρ c main_arg5 (by decide)).trans (by
    show StableHlo.after hostOps0 (W0 m ρ c) (Proc.devRef .tc main_arg5) = _
    after_results_simp <;> rfl)

theorem W2_arg6 (c : Dev nD) : W2 m ρ c (Proc.devRef .tc main_arg6) = (m ((c : Thread nD τ).loc main_arg6)) :=
  (W2_of_ne m ρ c main_arg6 (by decide)).trans (by
    show StableHlo.after hostOps0 (W0 m ρ c) (Proc.devRef .tc main_arg6) = _
    after_results_simp <;> rfl)

theorem W2_arg7 (c : Dev nD) : W2 m ρ c (Proc.devRef .tc main_arg7) = (m ((c : Thread nD τ).loc main_arg7)) :=
  (W2_of_ne m ρ c main_arg7 (by decide)).trans (by
    show StableHlo.after hostOps0 (W0 m ρ c) (Proc.devRef .tc main_arg7) = _
    after_results_simp <;> rfl)

/-! ## Layer 2's region -/

/-- The hidden features layer 2's region reads are what layer 1's region left. -/
theorem V3_feat (c : Dev nD) : V3 m ρ c main_v26 = V2 m ρ c main_v26 := by
  show StableHlo.after hostOps1 (W2 m ρ c) (Proc.devRef .tc main_v26) = _
  after_results_simp <;> rfl

/-- The aggregated hidden features are the reference's layer-2 aggregation of what layer 1's region left. -/
theorem V3_agg (c : Dev nD) :
    V3 m ρ c main_v45 = Cert.ReferenceIdeal.Layers.aggHidden (V2 m ρ c main_v26) (m ((c : Thread nD τ).loc main_arg1)) := by
  show StableHlo.after hostOps1 (W2 m ρ c) (Proc.devRef .tc main_v45) = _
  after_results_simp
  rw [W2_src m ρ c, W2_dst m ρ c]
  rfl

theorem V3_wl (c : Dev nD) : (V3 m ρ c main_v46 : S256x64.Idx → EReal) = (m ((c : Thread nD τ).loc main_arg5)) := by
  show StableHlo.after hostOps1 (W2 m ρ c) (Proc.devRef .tc main_v46) = _
  after_results_simp
  rw [W2_arg5 m ρ c]
  rfl

theorem V3_wr (c : Dev nD) : (V3 m ρ c main_v47 : S256x64.Idx → EReal) = (m ((c : Thread nD τ).loc main_arg7)) := by
  show StableHlo.after hostOps1 (W2 m ρ c) (Proc.devRef .tc main_v47) = _
  after_results_simp
  rw [W2_arg7 m ρ c]
  rfl

theorem V3_bias (c : Dev nD) :
    V3 m ρ c main_v48 = shapeCast S1x64 (m ((c : Thread nD τ).loc main_arg6)) shapeCasts_S64_S1x64 := by
  show StableHlo.after hostOps1 (W2 m ρ c) (Proc.devRef .tc main_v48) = _
  after_results_simp
  rw [W2_arg6 m ρ c]
  rfl

end Cert.KernelIdeal.Entry

end
-- ==== Proof.KernelValue.lean ====
/-
  The kernel's result, as the reference's function of the launch arguments.

  Layer 1's region leaves `max (combine) 0` of its entry arrays, which are the reference's aggregation, the launch
  features, the launch weights and the launch bias as a row: entry by entry that is the reference's layer-1 result.
  Layer 2's region is entered with the reference's layer-2 aggregation of that very array, the array itself and layer
  2's weights and bias, and leaves their combine: entry by entry the reference's result.
-/
import proofs.«174197_j1168231104600_1_alg».proof.Proof.Region0
import proofs.«174197_j1168231104600_1_alg».proof.Proof.Region1
import proofs.«174197_j1168231104600_1_alg».proof.Proof.Entry
import proofs.«174197_j1168231104600_1_alg».proof.Proof.RefLayers

set_option maxRecDepth 16384

noncomputable section

namespace Cert.KernelIdeal.Result

open Cert.KernelIdeal Cert.KernelIdeal.Gen Idealize.ShloMosaic Idealize.ShloMosaic.TcCoe Idealize.SL.Sem
open Idealize.ShloMosaic.ValueIdx Cert.Combine

/-- The combine of equal arrays is equal. -/
theorem comb_congr {M K N : Nat} {A A' X X' : (⟨2, ![M, K]⟩ : Shape).Idx → EReal}
    {Wl Wl' Wr Wr' : (⟨2, ![K, N]⟩ : Shape).Idx → EReal} {b b' : (⟨2, ![1, N]⟩ : Shape).Idx → EReal}
    (hA : A = A') (hX : X = X') (hl : Wl = Wl') (hr : Wr = Wr') (hb : b = b') (p : Fin M) (j : Fin N) :
    comb A X Wl Wr b p j = comb A' X' Wl' Wr' b' p j := by
  subst hA hX hl hr hb; rfl

variable (m : (ℓ : Loc nD τ sig) → Buf (Elt Ideal) ℓ) (ρ : Dev nD → PrngReg)

/-- What layer 1's region leaves in its output array is the reference's layer-1 result. -/
theorem hidden_eq (c : Dev nD) :
    V2 m ρ c main_v26 = Cert.ReferenceIdeal.Read.val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  have h : V2 m ρ c main_v26 = Region0.hidden (V1 m ρ) c := (W2_arr m ρ c 5).trans (Region0.final (V1 m ρ) c)
  rw [h]
  funext i
  obtain ⟨p, j, rfl⟩ : ∃ (p : Fin 100000) (j : Fin 256), i = ix2 p j := ⟨i 0, i 1, eq_ix2 i⟩
  rw [Cert.ReferenceIdeal.Layers.layer1_apply]
  unfold Region0.hidden
  exact congrArg (fun z => max z (Ideal.ofBits .f32 0x00000000#32))
    (comb_congr (Entry.V1_agg m ρ c) (Entry.V1_feat m ρ c) (Entry.V1_wl m ρ c) (Entry.V1_wr m ρ c)
      ((Entry.V1_bias m ρ c).trans (Cert.ReferenceIdeal.Layers.cast_bias1 _ _)) p j)

/-- What layer 2's region leaves in the result buffer is the reference's result. -/
theorem result_eq (c : Dev nD) :
    W4 m ρ c (Proc.devRef .tc main_v49) = Cert.ReferenceIdeal.Read.val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have h : W4 m ρ c (Proc.devRef .tc main_v49) = Region1.out (V3 m ρ) c := (W4_arr m ρ c 5).trans (Region1.final (V3 m ρ) c)
  rw [h]
  funext i
  obtain ⟨p, j, rfl⟩ : ∃ (p : Fin 100000) (j : Fin 64), i = ix2 p j := ⟨i 0, i 1, eq_ix2 i⟩
  rw [Cert.ReferenceIdeal.Layers.layer2_apply]
  have hH : V3 m ρ c main_v26 = Cert.ReferenceIdeal.Read.val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
    (Entry.V3_feat m ρ c).trans (hidden_eq m ρ c)
  have hA : V3 m ρ c main_v45 = Cert.ReferenceIdeal.Read.val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
    rw [Entry.V3_agg m ρ c, hidden_eq m ρ c, ← Cert.ReferenceIdeal.Layers.agg2_eq]
  unfold Region1.out
  exact comb_congr hA hH (Entry.V3_wl m ρ c) (Entry.V3_wr m ρ c)
    ((Entry.V3_bias m ρ c).trans (Cert.ReferenceIdeal.Layers.cast_bias2 _ _)) p j

end Cert.KernelIdeal.Result

end
-- ==== Proof.lean ====
/-
  Two GraphSAGE layers (mean aggregation over the edge list, then `agg·Wl + x·Wr + b`, the first layer clamped at zero)
  with each layer's dense combine as a row-blocked kernel, against the same network written with whole-array products.

  On the extended reals the two programs compute the same function of their arguments: the aggregation is the same
  chain of host operations in both; the kernel's roundings to bf16 are the identity; a row block of a product is the
  rows of the whole product; and the kernel's `(A·Wl + X·Wr) + b` is the reference's `(A·Wl + b) + X·Wr` because
  addition there is commutative and associative — no finiteness is used. The frames are the generated ones; the
  reference's is its generated run with the result dropped; the ideal pass rewrote nothing, so `preserves` is trivial.
-/
import proofs.«174197_j1168231104600_1_alg».proof.Defs
import proofs.«174197_j1168231104600_1_alg».proof.Proof.Gen.Kernel
import proofs.«174197_j1168231104600_1_alg».proof.Proof.Gen.Kernel.Frame
import proofs.«174197_j1168231104600_1_alg».proof.Proof.Gen.KernelIdeal
import proofs.«174197_j1168231104600_1_alg».proof.Proof.Gen.KernelIdeal.Frame
import proofs.«174197_j1168231104600_1_alg».proof.Proof.Gen.ReferenceIdeal
import proofs.«174197_j1168231104600_1_alg».proof.Proof.Gen.ReferenceIdeal.Run
import proofs.«174197_j1168231104600_1_alg».proof.Proof.Gen.ReferenceIdeal.Read
import proofs.«174197_j1168231104600_1_alg».proof.Proof.Gen.Pre_finite_inputs
import proofs.«174197_j1168231104600_1_alg».proof.Proof.KRun
import proofs.«174197_j1168231104600_1_alg».proof.Proof.KernelValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end with the reference's last stage of arguments that agree. -/
theorem algebraic : Cert.algebraic_KernelIdeal_ReferenceIdeal := by
  intro m ρ m' ρ' _ hagree
  refine ⟨fun c => Cert.KernelIdeal.Gen.W4 m ρ c (Proc.devRef .tc Cert.KernelIdeal.main_v49),
    Cert.KernelIdeal.RunNamed.run_named m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v54_eq m' c).trans ?_
  obtain ⟨h0, h1, h2, h3, h4, h5, h6, h7⟩ := hagree c
  rw [h0, h1, h2, h3, h4, h5, h6, h7]
  exact (Cert.KernelIdeal.Result.result_eq m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
